-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S200x1024 : Shape := ⟨2, ![200, 1024]⟩
abbrev S200x50 : Shape := ⟨2, ![200, 50]⟩
abbrev S200 : Shape := ⟨1, ![200]⟩
abbrev S1024x50 : Shape := ⟨2, ![1024, 50]⟩
abbrev S1024 : Shape := ⟨1, ![1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S200x1024 : S_.BroadcastsInDim S200x1024 (![] : Fin 0 → Fin S200x1024.rank)
  reducesTo_S200x1024_S_d0_1 : S200x1024.ReducesTo [0, 1] S_
  bcast_S_S200x50 : S_.BroadcastsInDim S200x50 (![] : Fin 0 → Fin S200x50.rank)
  reducesTo_S200x50_S_d0_1 : S200x50.ReducesTo [0, 1] S_
  bcast_S_S200 : S_.BroadcastsInDim S200 (![] : Fin 0 → Fin S200.rank)
  reducesTo_S200_S_d0 : S200.ReducesTo [0] S_
  bcast_S_S1024x50 : S_.BroadcastsInDim S1024x50 (![] : Fin 0 → Fin S1024x50.rank)
  reducesTo_S1024x50_S_d0_1 : S1024x50.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S200 .f32) (main_arg5 : FVec F S1024x50 .f32) (main_arg6 : FVec F S1024 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S200 .f32 := Host.absf main_arg4
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S1024x50 .f32 := Host.absf main_arg5
  let main_cst_8 : FVec F S_ .f32 := constant S_ .f32 0x7F800000#32
  let main_v25 : FVec F S1024x50 .f32 := broadcastInDim S1024x50 ![] bcast_S_S1024x50 main_cst_8
  let main_v26 : IVec S1024x50 1 := cmpf .olt main_v24 main_v25
  let main_c_9 : IVec S_ 1 := constantI S_ 1 1#1
  let main_v27 : IVec S_ 1 := (fun x v => Host.reduce IntOp.andi x v reducesTo_S1024x50_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S32x2048x1024 .f32) (main_arg1 : FVec F S200x1024 .f32) (main_arg2 : FVec F S200x50 .f32) (main_arg3 : FVec F S200 .f32) (main_arg4 : FVec F S200 .f32) (main_arg5 : FVec F S1024x50 .f32) (main_arg6 : FVec F S1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S200x1024 .f32 := Host.absf main_arg1
  let main_cst_0 : FVec F S_ .f32 := constant S_ .f32 0x7F800000#32
  let main_v5 : FVec F S200x1024 .f32 := broadcastInDim S200x1024 ![] bcast_S_S200x1024 main_cst_0
  let main_v6 : IVec S200x1024 1 := cmpf .olt main_v4 main_v5
  let main_c_1 : IVec S_ 1 := constantI S_ 1 1#1
  let main_v7 : IVec S_ 1 := (fun x v => Host.reduce IntOp.andi x v reducesTo_S200x1024_S_d0_1 h_S_) main_v6 main_c_1
  let main_v8 : IVec S_ 1 := andi main_v3 main_v7
  let main_v9 : FVec F S200x50 .f32 := Host.absf main_arg2
  let main_cst_2 : FVec F S_ .f32 := constant S_ .f32 0x7F800000#32
  let main_v10 : FVec F S200x50 .f32 := broadcastInDim S200x50 ![] bcast_S_S200x50 main_cst_2
  let main_v11 : IVec S200x50 1 := cmpf .olt main_v9 main_v10
  let main_c_3 : IVec S_ 1 := constantI S_ 1 1#1
  let main_v12 : IVec S_ 1 := (fun x v => Host.reduce IntOp.andi x v reducesTo_S200x50_S_d0_1 h_S_) main_v11 main_c_3
  let main_v13 : IVec S_ 1 := andi main_v8 main_v12
  let main_v14 : FVec F S200 .f32 := Host.absf main_arg3
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg4 main_arg5 main_arg6 main_v13 main_v16
-- ==== Kernel.lean ====
abbrev S32x2048x1024 : Shape := ⟨3, ![32, 2048, 1024]⟩
abbrev S200x1024 : Shape := ⟨2, ![200, 1024]⟩
abbrev S200x50 : Shape := ⟨2, ![200, 50]⟩
abbrev S200 : Shape := ⟨1, ![200]⟩
abbrev S1024x50 : Shape := ⟨2, ![1024, 50]⟩
abbrev S1024 : Shape := ⟨1, ![1024]⟩
abbrev S65536x1024 : Shape := ⟨2, ![65536, 1024]⟩
abbrev S1x200 : Shape := ⟨2, ![1, 200]⟩
abbrev S1024x200 : Shape := ⟨2, ![1024, 200]⟩
abbrev S50x1024 : Shape := ⟨2, ![50, 1024]⟩
abbrev S1x1024 : Shape := ⟨2, ![1, 1024]⟩
abbrev S1024x1024 : Shape := ⟨2, ![1024, 1024]⟩

abbrev nBuf : Space → Nat
  | .hbm => 17
  | .vmem => 8
  | .smem => 0
  | _ => 0

abbrev bufTy : (tb : Table) → Fin (tcTables nBuf tb) → BufTy
  | .hbm, ⟨0, _⟩ => ⟨S32x2048x1024, .f32⟩
  | .hbm, ⟨1, _⟩ => ⟨S200x1024, .f32⟩
  | .hbm, ⟨2, _⟩ => ⟨S200x50, .f32⟩
  | .hbm, ⟨3, _⟩ => ⟨S200, .f32⟩
  | .hbm, ⟨4, _⟩ => ⟨S200, .f32⟩
  | .hbm, ⟨5, _⟩ => ⟨S1024x50, .f32⟩
  | .hbm, ⟨6, _⟩ => ⟨S1024, .f32⟩
  | .hbm, ⟨7, _⟩ => ⟨S65536x1024, .f32⟩
  | .hbm, ⟨8, _⟩ => ⟨S200, .f32⟩
  | .hbm, ⟨9, _⟩ => ⟨S1x200, .f32⟩
  | .hbm, ⟨10, _⟩ => ⟨S1024x200, .f32⟩
  | .hbm, ⟨11, _⟩ => ⟨S1024x200, .bf16⟩
  | .hbm, ⟨12, _⟩ => ⟨S50x1024, .f32⟩
  | .hbm, ⟨13, _⟩ => ⟨S50x1024, .bf16⟩
  | .hbm, ⟨14, _⟩ => ⟨S1x1024, .f32⟩
  | .hbm, ⟨15, _⟩ => ⟨S65536x1024, .f32⟩
  | .hbm, ⟨16, _⟩ => ⟨S32x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x200, .bf16⟩
  | .local _ .vmem, ⟨3, _⟩ => ⟨S1x200, .f32⟩
  | .local _ .vmem, ⟨4, _⟩ => ⟨S50x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x2048x1024_S65536x1024 : S32x2048x1024.ShapeCasts S65536x1024
  shapeCasts_S200_S1x200 : S200.ShapeCasts S1x200
  transposes_S200x1024_S1024x200_1_0 : S200x1024.Transposes [1, 0] S1024x200
  bitsLt_bf16_f32 : FTy.bits .bf16 < FTy.bits .f32
  transposes_S1024x50_S50x1024_1_0 : S1024x50.Transposes [1, 0] S50x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S1024x200 : S1x200.Broadcasts S1024x200
  slices_S1024x200_o0_0_S1024x50 : S1024x200.Slices ![0, 0] S1024x50
  slices_S1024x200_o0_100_S1024x50 : S1024x200.Slices ![0, 100] S1024x50
  slices_S1024x200_o0_150_S1024x50 : S1024x200.Slices ![0, 150] S1024x50
  inb_S50x1024_S50x1024_0_0 : ∀ a, (![0, 0] : Fin 2 → Nat) a + S50x1024.size a ≤ S50x1024.size a
  h_S50x1024 : 0 < S50x1024.numel
  shapeCasts_S50x1024_S50x1024 : S50x1024.ShapeCasts S50x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S65536x1024_S32x2048x1024 : S65536x1024.ShapeCasts S32x2048x1024
  dot_S1024x1024_S1024x200_S1024x200_1_0_0_1_n_n_wf : DotDims.WF S1024x1024 S1024x200 S1024x200 [1] [0] [0] [1] [] []
  dot_S1024x50_S50x1024_S1024x1024_1_0_0_1_n_n_wf : DotDims.WF S1024x50 S50x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x200.size a ≤ S1024x200.size a
  hwx0_1 : ∀ i : grid0.Coords, EltTy.bits .bf16 = 32 ∨ (Rect.block (s := S1024x200) S1024x200.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x200.size a ≤ S1x200.size a
  hwx0_2 : ∀ i : grid0.Coords, EltTy.bits .f32 = 32 ∨ (Rect.block (s := S1x200) S1x200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x1024.size a ≤ S50x1024.size a
  hwx0_3 : ∀ i : grid0.Coords, EltTy.bits .bf16 = 32 ∨ (Rect.block (s := S50x1024) S50x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S65536x1024.size a
  hwx0_5 : ∀ i : grid0.Coords, EltTy.bits .f32 = 32 ∨ (Rect.block (s := S65536x1024) S1024x1024.size (cc0_transform_5 i) (hinb0_5 i)).WholeWords (EltTy.packing .f32)

variable [Facts₀]

def dot_S1024x1024_S1024x200_S1024x200_1_0_0_1_n_n : DotDims S1024x1024 S1024x200 S1024x200 where
  lhsContracting := [1]
  rhsContracting := [0]
  lhsNonContracting := [0]
  rhsNonContracting := [1]
  lhsBatch := []
  rhsBatch := []
  wf := dot_S1024x1024_S1024x200_S1024x200_1_0_0_1_n_n_wf
def dot_S1024x50_S50x1024_S1024x1024_1_0_0_1_n_n : DotDims S1024x50 S50x1024 S1024x1024 where
  lhsContracting := [1]
  rhsContracting := [0]
  lhsNonContracting := [0]
  rhsNonContracting := [1]
  lhsBatch := []
  rhsBatch := []
  wf := dot_S1024x50_S50x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S50x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048x1024 : Shape := ⟨3, ![32, 2048, 1024]⟩
abbrev S200x1024 : Shape := ⟨2, ![200, 1024]⟩
abbrev S200x50 : Shape := ⟨2, ![200, 50]⟩
abbrev S200 : Shape := ⟨1, ![200]⟩
abbrev S1024x50 : Shape := ⟨2, ![1024, 50]⟩
abbrev S1024 : Shape := ⟨1, ![1024]⟩
abbrev S32x2048x200 : Shape := ⟨3, ![32, 2048, 200]⟩
abbrev S1x1x200 : Shape := ⟨3, ![1, 1, 200]⟩
abbrev S32x2048x50 : Shape := ⟨3, ![32, 2048, 50]⟩
abbrev S_ : Shape := ⟨0, ![]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S200x1024, .f32⟩
  | .hbm, ⟨2, _⟩ => ⟨S200x50, .f32⟩
  | .hbm, ⟨3, _⟩ => ⟨S200, .f32⟩
  | .hbm, ⟨4, _⟩ => ⟨S200, .f32⟩
  | .hbm, ⟨5, _⟩ => ⟨S1024x50, .f32⟩
  | .hbm, ⟨6, _⟩ => ⟨S1024, .f32⟩
  | .hbm, ⟨7, _⟩ => ⟨S32x2048x200, .f32⟩
  | .hbm, ⟨8, _⟩ => ⟨S1x1x200, .f32⟩
  | .hbm, ⟨9, _⟩ => ⟨S32x2048x200, .f32⟩
  | .hbm, ⟨10, _⟩ => ⟨S32x2048x200, .f32⟩
  | .hbm, ⟨11, _⟩ => ⟨S1x1x200, .f32⟩
  | .hbm, ⟨12, _⟩ => ⟨S32x2048x200, .f32⟩
  | .hbm, ⟨13, _⟩ => ⟨S32x2048x200, .f32⟩
  | .hbm, ⟨14, _⟩ => ⟨S32x2048x50, .f32⟩
  | .hbm, ⟨15, _⟩ => ⟨S32x2048x50, .f32⟩
  | .hbm, ⟨16, _⟩ => ⟨S32x2048x50, .f32⟩
  | .hbm, ⟨17, _⟩ => ⟨S32x2048x50, .f32⟩
  | .hbm, ⟨18, _⟩ => ⟨S32x2048x50, .f32⟩
  | .hbm, ⟨19, _⟩ => ⟨S32x2048x50, .f32⟩
  | .hbm, ⟨20, _⟩ => ⟨S_, .f32⟩
  | .hbm, ⟨21, _⟩ => ⟨S32x2048x50, .f32⟩
  | .hbm, ⟨22, _⟩ => ⟨S32x2048x50, .f32⟩
  | .hbm, ⟨23, _⟩ => ⟨S_, .f32⟩
  | .hbm, ⟨24, _⟩ => ⟨S32x2048x50, .f32⟩
  | .hbm, ⟨25, _⟩ => ⟨S32x2048x50, .f32⟩
  | .hbm, ⟨26, _⟩ => ⟨S32x2048x50, .f32⟩
  | .hbm, ⟨27, _⟩ => ⟨S32x2048x50, .f32⟩
  | .hbm, ⟨28, _⟩ => ⟨S32x2048x50, .f32⟩
  | .hbm, ⟨29, _⟩ => ⟨S32x2048x50, .f32⟩
  | .hbm, ⟨30, _⟩ => ⟨S_, .f32⟩
  | .hbm, ⟨31, _⟩ => ⟨S32x2048x50, .f32⟩
  | .hbm, ⟨32, _⟩ => ⟨S32x2048x50, .f32⟩
  | .hbm, ⟨33, _⟩ => ⟨S_, .f32⟩
  | .hbm, ⟨34, _⟩ => ⟨S32x2048x50, .f32⟩
  | .hbm, ⟨35, _⟩ => ⟨S32x2048x50, .f32⟩
  | .hbm, ⟨36, _⟩ => ⟨S32x2048x50, .f32⟩
  | .hbm, ⟨37, _⟩ => ⟨S32x2048x50, .f32⟩
  | .hbm, ⟨38, _⟩ => ⟨S32x2048x1024, .f32⟩
  | .hbm, ⟨39, _⟩ => ⟨S1x1x1024, .f32⟩
  | .hbm, ⟨40, _⟩ => ⟨S32x2048x1024, .f32⟩
  | .hbm, ⟨41, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S200_S1x1x200_2 : S200.BroadcastsInDim S1x1x200 (![2] : Fin 1 → Fin S1x1x200.rank)
  bcast_S1x1x200_S32x2048x200_0_1_2 : S1x1x200.BroadcastsInDim S32x2048x200 (![0, 1, 2] : Fin 3 → Fin S32x2048x200.rank)
  slices_S32x2048x200_S32x2048x50_0_0_0 : S32x2048x200.Slices ![0, 0, 0] S32x2048x50
  slices_S32x2048x200_S32x2048x50_0_0_50 : S32x2048x200.Slices ![0, 0, 50] S32x2048x50
  slices_S32x2048x200_S32x2048x50_0_0_100 : S32x2048x200.Slices ![0, 0, 100] S32x2048x50
  slices_S32x2048x200_S32x2048x50_0_0_150 : S32x2048x200.Slices ![0, 0, 150] S32x2048x50
  bcast_S_S32x2048x50 : S_.BroadcastsInDim S32x2048x50 (![] : Fin 0 → Fin S32x2048x50.rank)
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  dot_S32x2048x1024_S200x1024_S32x2048x200_2_1_01_0_n_n_wf : DotDims.WF S32x2048x1024 S200x1024 S32x2048x200 [2] [1] [0, 1] [0] [] []
  dot_S32x2048x50_S1024x50_S32x2048x1024_2_1_01_0_n_n_wf : DotDims.WF S32x2048x50 S1024x50 S32x2048x1024 [2] [1] [0, 1] [0] [] []

variable [Facts₀]

def dot_S32x2048x1024_S200x1024_S32x2048x200_2_1_01_0_n_n : DotDims S32x2048x1024 S200x1024 S32x2048x200 where
  lhsContracting := [2]
  rhsContracting := [1]
  lhsNonContracting := [0, 1]
  rhsNonContracting := [0]
  lhsBatch := []
  rhsBatch := []
  wf := dot_S32x2048x1024_S200x1024_S32x2048x200_2_1_01_0_n_n_wf
def dot_S32x2048x50_S1024x50_S32x2048x1024_2_1_01_0_n_n : DotDims S32x2048x50 S1024x50 S32x2048x1024 where
  lhsContracting := [2]
  rhsContracting := [1]
  lhsNonContracting := [0, 1]
  rhsNonContracting := [0]
  lhsBatch := []
  rhsBatch := []
  wf := dot_S32x2048x50_S1024x50_S32x2048x1024_2_1_01_0_n_n_wf

class Facts : Prop extends Facts₀ where

variable [Facts]
-- ==== Proof.Spec.lean ====
/-
  The mathematics both programs compute, stated once over the extended reals.

  For one row of features `xr : Fin 1024 → EReal` the four gate pre-activations are
  `gate n = (∑ k, xr k · w k n) + bias n` for `n < 200`; gates `0..49` are the input gate, `100..149` the
  cell candidate, `150..199` the output gate (the forget gate `50..99` multiplies a zero cell state and is never read).
  With zero initial state the hidden value is `h j = σ(out j) · tanh(σ(in j) · tanh(cand j))`, and the result row is
  `out f = (∑ j < 50, h j · wl j f) + bl f`.

  `rowOut` is that function of a row; `out2d` applies it to every row of a 65536 × 1024 matrix with the weight
  matrices already transposed (what the kernel's blocks see), `out3d` to every `(b, t)` of a 32 × 2048 × 1024 array
  with the weights as the reference holds them.
-/
import Idealize.ShloMosaic.PureOps.Ideal
import Idealize.ShloMosaic.Lib.ValueIdx

noncomputable section

namespace Cert.Lstm

open Idealize.ShloMosaic Idealize.ShloMosaic.ValueIdx

/-- The pattern of `1.0` denotes the real one. -/
theorem ofBits_one : Ideal.ofBits .f32 0x3F800000#32 = 1 := by
  simp [Ideal.ofBits, Ideal.ieee, -EReal.coe_mul]; norm_num

/-- The logistic function spelt as a quotient, with the ones written as the pattern of `1.0`, is the logistic function. -/
theorem logistic_spelt (x : EReal) :
    Ideal.div (Ideal.ofBits .f32 0x3F800000#32) (Ideal.ofBits .f32 0x3F800000#32 + Ideal.exp (-x)) = Ideal.logistic x := by
  rw [ofBits_one]; rfl

/-- The input gate's column for hidden unit `j`. -/
def inGate (j : Fin 50) : Fin 200 := ⟨j.val, by have := j.isLt; omega⟩
/-- The cell candidate's column for hidden unit `j`. -/
def candGate (j : Fin 50) : Fin 200 := ⟨100 + j.val, by have := j.isLt; omega⟩
/-- The output gate's column for hidden unit `j`. -/
def outGate (j : Fin 50) : Fin 200 := ⟨150 + j.val, by have := j.isLt; omega⟩

/-- One gate pre-activation of a row: the row against column `n` of the weights, plus the bias. -/
def gate (xr : Fin 1024 → EReal) (w : Fin 1024 → Fin 200 → EReal) (bias : Fin 200 → EReal) (n : Fin 200) : EReal :=
  (∑ k : Fin 1024, xr k * w k n) + bias n

/-- The hidden value from the three gates that matter when the initial state is zero. -/
def hidden (gi gc go : EReal) : EReal :=
  Ideal.logistic go * Ideal.tanh (Ideal.logistic gi * Ideal.tanh gc)

/-- The hidden value of unit `j` for a row. -/
def hiddenAt (xr : Fin 1024 → EReal) (w : Fin 1024 → Fin 200 → EReal) (bias : Fin 200 → EReal) (j : Fin 50) : EReal :=
  hidden (gate xr w bias (inGate j)) (gate xr w bias (candGate j)) (gate xr w bias (outGate j))

/-- The result row: the hidden values against column `f` of the output weights, plus the output bias. -/
def rowOut (xr : Fin 1024 → EReal) (w : Fin 1024 → Fin 200 → EReal) (bias : Fin 200 → EReal)
    (wl : Fin 50 → Fin 1024 → EReal) (bl : Fin 1024 → EReal) (f : Fin 1024) : EReal :=
  (∑ j : Fin 50, hiddenAt xr w bias j * wl j f) + bl f

/-- Every row of a 65536 × 1024 matrix through `rowOut`, the weights given transposed and the biases as one-row matrices. -/
def out2d (a0 : (⟨2, ![65536, 1024]⟩ : Shape).Idx → EReal) (a1 : (⟨2, ![1024, 200]⟩ : Shape).Idx → EReal)
    (a2 : (⟨2, ![1, 200]⟩ : Shape).Idx → EReal) (a3 : (⟨2, ![50, 1024]⟩ : Shape).Idx → EReal)
    (a4 : (⟨2, ![1, 1024]⟩ : Shape).Idx → EReal) : (⟨2, ![65536, 1024]⟩ : Shape).Idx → EReal := fun i =>
  rowOut (fun k => a0 (ix2 (i 0) k)) (fun k n => a1 (ix2 k n)) (fun n => a2 (ix2 0 n))
    (fun j f => a3 (ix2 j f)) (fun f => a4 (ix2 0 f)) (i 1)

/-- Every `(b, t)` row of a 32 × 2048 × 1024 array through `rowOut`, the weights as given (gate-major, feature-major)
    and the two gate biases added. -/
def out3d (X : (⟨3, ![32, 2048, 1024]⟩ : Shape).Idx → EReal) (Wih : (⟨2, ![200, 1024]⟩ : Shape).Idx → EReal)
    (bih bhh : (⟨1, ![200]⟩ : Shape).Idx → EReal) (Wlin : (⟨2, ![1024, 50]⟩ : Shape).Idx → EReal)
    (blin : (⟨1, ![1024]⟩ : Shape).Idx → EReal) : (⟨3, ![32, 2048, 1024]⟩ : Shape).Idx → EReal := fun i =>
  rowOut (fun k => X (ix3 (i 0) (i 1) k)) (fun k n => Wih (ix2 n k)) (fun n => bih (ix1 n) + bhh (ix1 n))
    (fun j f => Wlin (ix2 f j)) (fun f => blin (ix1 f)) (i 2)

end Cert.Lstm

end
-- ==== Proof.Payload.lean ====
/-
  The kernel body's one stored value, read at an index: row `r` of the output block is `rowOut` of row `r` of the
  input block and the four resident operands.
-/
import proofs.«128014_j32615981646159_1_alg».proof.Proof.Gen.KernelIdeal.Skeleton
import proofs.«128014_j32615981646159_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Lstm.Kern

open Cert.KernelIdeal Cert.KernelIdeal.Gen Idealize.ShloMosaic Idealize.ShloMosaic.ValueIdx Cert.Lstm

/-! ## The first contraction: a row of features against a column of gate weights -/

theorem lhs_gate_0 (i : S1024x200.Idx) (q : dot_S1024x1024_S1024x200_S1024x200_1_0_0_1_n_n.contr.Idx) :
    (dot_S1024x1024_S1024x200_S1024x200_1_0_0_1_n_n.lhsIdx i q 0).val = (i 0).val := by
  unfold DotDims.lhsIdx
  rw [dif_neg (show ¬(0 : Fin S1024x1024.rank) ∈ dot_S1024x1024_S1024x200_S1024x200_1_0_0_1_n_n.lhsBatch by decide), dif_pos (show (0 : Fin S1024x1024.rank) ∈ dot_S1024x1024_S1024x200_S1024x200_1_0_0_1_n_n.lhsNonContracting by decide)]
  rfl
theorem lhs_gate_1 (i : S1024x200.Idx) (q : dot_S1024x1024_S1024x200_S1024x200_1_0_0_1_n_n.contr.Idx) :
    (dot_S1024x1024_S1024x200_S1024x200_1_0_0_1_n_n.lhsIdx i q 1).val = (q ⟨0, by decide⟩).val :=
  dot_S1024x1024_S1024x200_S1024x200_1_0_0_1_n_n.lhsIdx_val_of_single rfl i q
theorem rhs_gate_0 (i : S1024x200.Idx) (q : dot_S1024x1024_S1024x200_S1024x200_1_0_0_1_n_n.contr.Idx) :
    (dot_S1024x1024_S1024x200_S1024x200_1_0_0_1_n_n.rhsIdx i q 0).val = (q ⟨0, by decide⟩).val :=
  dot_S1024x1024_S1024x200_S1024x200_1_0_0_1_n_n.rhsIdx_val_of_single rfl i q
theorem rhs_gate_1 (i : S1024x200.Idx) (q : dot_S1024x1024_S1024x200_S1024x200_1_0_0_1_n_n.contr.Idx) :
    (dot_S1024x1024_S1024x200_S1024x200_1_0_0_1_n_n.rhsIdx i q 1).val = (i 1).val := by
  unfold DotDims.rhsIdx
  rw [dif_neg (show ¬(1 : Fin S1024x200.rank) ∈ dot_S1024x1024_S1024x200_S1024x200_1_0_0_1_n_n.rhsBatch by decide), dif_pos (show (1 : Fin S1024x200.rank) ∈ dot_S1024x1024_S1024x200_S1024x200_1_0_0_1_n_n.rhsNonContracting by decide)]
  rfl

/-- The first product into a zero accumulator, read at `(r, n)`: row `r` of the left operand against column `n` of the right. -/
theorem gate_matmul_apply (a : FVec Ideal S1024x1024 .bf16) (b : FVec Ideal S1024x200 .bf16) (r : Fin 1024) (n : Fin 200) :
    FloatOps.matmul dot_S1024x1024_S1024x200_S1024x200_1_0_0_1_n_n none a b (constant (F := Ideal) S1024x200 .f32 0x00000000#32) (ix2 r n)
      = ∑ k : Fin 1024, a (ix2 r k) * b (ix2 k n) := by
  rw [Ideal.matmul_constant_zero_apply, ← Equiv.sum_comp (ValueIdx.contrEquiv1 dot_S1024x1024_S1024x200_S1024x200_1_0_0_1_n_n 1024 rfl rfl).symm]
  refine Finset.sum_congr rfl fun k _ => ?_
  have hk := ValueIdx.contrEquiv1_symm_val dot_S1024x1024_S1024x200_S1024x200_1_0_0_1_n_n 1024 rfl rfl k
  have el : dot_S1024x1024_S1024x200_S1024x200_1_0_0_1_n_n.lhsIdx (ix2 r n) ((ValueIdx.contrEquiv1 dot_S1024x1024_S1024x200_S1024x200_1_0_0_1_n_n 1024 rfl rfl).symm k) = ix2 r k := funext fun c => Fin.ext (by
    match c with
    | ⟨0, _⟩ => exact lhs_gate_0 _ _
    | ⟨1, _⟩ => exact (lhs_gate_1 _ _).trans hk)
  have er : dot_S1024x1024_S1024x200_S1024x200_1_0_0_1_n_n.rhsIdx (ix2 r n) ((ValueIdx.contrEquiv1 dot_S1024x1024_S1024x200_S1024x200_1_0_0_1_n_n 1024 rfl rfl).symm k) = ix2 k n := funext fun c => Fin.ext (by
    match c with
    | ⟨0, _⟩ => exact (rhs_gate_0 _ _).trans hk
    | ⟨1, _⟩ => exact rhs_gate_1 _ _)
  rw [el, er]

/-! ## The second contraction: a row of hidden values against a column of output weights -/

theorem lhs_out_0 (i : S1024x1024.Idx) (q : dot_S1024x50_S50x1024_S1024x1024_1_0_0_1_n_n.contr.Idx) :
    (dot_S1024x50_S50x1024_S1024x1024_1_0_0_1_n_n.lhsIdx i q 0).val = (i 0).val := by
  unfold DotDims.lhsIdx
  rw [dif_neg (show ¬(0 : Fin S1024x50.rank) ∈ dot_S1024x50_S50x1024_S1024x1024_1_0_0_1_n_n.lhsBatch by decide), dif_pos (show (0 : Fin S1024x50.rank) ∈ dot_S1024x50_S50x1024_S1024x1024_1_0_0_1_n_n.lhsNonContracting by decide)]
  rfl
theorem lhs_out_1 (i : S1024x1024.Idx) (q : dot_S1024x50_S50x1024_S1024x1024_1_0_0_1_n_n.contr.Idx) :
    (dot_S1024x50_S50x1024_S1024x1024_1_0_0_1_n_n.lhsIdx i q 1).val = (q ⟨0, by decide⟩).val :=
  dot_S1024x50_S50x1024_S1024x1024_1_0_0_1_n_n.lhsIdx_val_of_single rfl i q
theorem rhs_out_0 (i : S1024x1024.Idx) (q : dot_S1024x50_S50x1024_S1024x1024_1_0_0_1_n_n.contr.Idx) :
    (dot_S1024x50_S50x1024_S1024x1024_1_0_0_1_n_n.rhsIdx i q 0).val = (q ⟨0, by decide⟩).val :=
  dot_S1024x50_S50x1024_S1024x1024_1_0_0_1_n_n.rhsIdx_val_of_single rfl i q
theorem rhs_out_1 (i : S1024x1024.Idx) (q : dot_S1024x50_S50x1024_S1024x1024_1_0_0_1_n_n.contr.Idx) :
    (dot_S1024x50_S50x1024_S1024x1024_1_0_0_1_n_n.rhsIdx i q 1).val = (i 1).val := by
  unfold DotDims.rhsIdx
  rw [dif_neg (show ¬(1 : Fin S50x1024.rank) ∈ dot_S1024x50_S50x1024_S1024x1024_1_0_0_1_n_n.rhsBatch by decide), dif_pos (show (1 : Fin S50x1024.rank) ∈ dot_S1024x50_S50x1024_S1024x1024_1_0_0_1_n_n.rhsNonContracting by decide)]
  rfl

/-- The second product into a zero accumulator, read at `(r, f)`: row `r` of the left operand against column `f` of the right. -/
theorem out_matmul_apply (a : FVec Ideal S1024x50 .bf16) (b : FVec Ideal S50x1024 .bf16) (r f : Fin 1024) :
    FloatOps.matmul dot_S1024x50_S50x1024_S1024x1024_1_0_0_1_n_n none a b (constant (F := Ideal) S1024x1024 .f32 0x00000000#32) (ix2 r f)
      = ∑ j : Fin 50, a (ix2 r j) * b (ix2 j f) := by
  rw [Ideal.matmul_constant_zero_apply, ← Equiv.sum_comp (ValueIdx.contrEquiv1 dot_S1024x50_S50x1024_S1024x1024_1_0_0_1_n_n 50 rfl rfl).symm]
  refine Finset.sum_congr rfl fun j _ => ?_
  have hj := ValueIdx.contrEquiv1_symm_val dot_S1024x50_S50x1024_S1024x1024_1_0_0_1_n_n 50 rfl rfl j
  have el : dot_S1024x50_S50x1024_S1024x1024_1_0_0_1_n_n.lhsIdx (ix2 r f) ((ValueIdx.contrEquiv1 dot_S1024x50_S50x1024_S1024x1024_1_0_0_1_n_n 50 rfl rfl).symm j) = ix2 r j := funext fun c => Fin.ext (by
    match c with
    | ⟨0, _⟩ => exact lhs_out_0 _ _
    | ⟨1, _⟩ => exact (lhs_out_1 _ _).trans hj)
  have er : dot_S1024x50_S50x1024_S1024x1024_1_0_0_1_n_n.rhsIdx (ix2 r f) ((ValueIdx.contrEquiv1 dot_S1024x50_S50x1024_S1024x1024_1_0_0_1_n_n 50 rfl rfl).symm j) = ix2 j f := funext fun c => Fin.ext (by
    match c with
    | ⟨0, _⟩ => exact (rhs_out_0 _ _).trans hj
    | ⟨1, _⟩ => exact rhs_out_1 _ _)
  rw [el, er]

/-! ## The three column windows of the gate matrix -/

/-- Columns `0..49`: the input gate's. -/
theorem slice_in (y : FVec Ideal S1024x200 .f32) (r : Fin 1024) (j : Fin 50) :
    extractStridedSlice S1024x50 ![0, 0] y slices_S1024x200_o0_0_S1024x50 (ix2 r j) = y (ix2 r (inGate j)) :=
  extractStridedSlice_apply ![0, 0] y slices_S1024x200_o0_0_S1024x50 (ix2 r j) (ix2 r (inGate j)) (fun c => match c with
    | ⟨0, _⟩ => by show r.val = 0 + r.val; omega
    | ⟨1, _⟩ => by show j.val = 0 + j.val; omega)
/-- Columns `100..149`: the cell candidate's. -/
theorem slice_cand (y : FVec Ideal S1024x200 .f32) (r : Fin 1024) (j : Fin 50) :
    extractStridedSlice S1024x50 ![0, 100] y slices_S1024x200_o0_100_S1024x50 (ix2 r j) = y (ix2 r (candGate j)) :=
  extractStridedSlice_apply ![0, 100] y slices_S1024x200_o0_100_S1024x50 (ix2 r j) (ix2 r (candGate j)) (fun c => match c with
    | ⟨0, _⟩ => by show r.val = 0 + r.val; omega
    | ⟨1, _⟩ => by show 100 + j.val = 100 + j.val; rfl)
/-- Columns `150..199`: the output gate's. -/
theorem slice_out (y : FVec Ideal S1024x200 .f32) (r : Fin 1024) (j : Fin 50) :
    extractStridedSlice S1024x50 ![0, 150] y slices_S1024x200_o0_150_S1024x50 (ix2 r j) = y (ix2 r (outGate j)) :=
  extractStridedSlice_apply ![0, 150] y slices_S1024x200_o0_150_S1024x50 (ix2 r j) (ix2 r (outGate j)) (fun c => match c with
    | ⟨0, _⟩ => by show r.val = 0 + r.val; omega
    | ⟨1, _⟩ => by show 150 + j.val = 150 + j.val; rfl)

/-! ## The gate matrix and the hidden matrix at an index -/

/-- The first product plus the broadcast bias row, read at `(r, n)`, is gate `n` of row `r`
    (the narrowing of the left operand is the identity on extended reals). -/
theorem gates_apply (x0 : FVec Ideal S1024x1024 .f32) (x1 : FVec Ideal S1024x200 .bf16) (x2 : FVec Ideal S1x200 .f32)
    (r : Fin 1024) (n : Fin 200) :
    addf (FloatOps.matmul dot_S1024x1024_S1024x200_S1024x200_1_0_0_1_n_n none (truncf .bf16 x0 bitsLt_bf16_f32) x1
            (constant (F := Ideal) S1024x200 .f32 0x00000000#32))
         (broadcastTo S1024x200 x2 broadcasts_S1x200_S1024x200) (ix2 r n)
      = gate (fun k => x0 (ix2 r k)) (fun k n => x1 (ix2 k n)) (fun n => x2 (ix2 0 n)) n := by
  refine (addf_apply _ _ _).trans ?_
  unfold gate
  exact congrArg₂ (· + ·) (gate_matmul_apply (truncf .bf16 x0 bitsLt_bf16_f32) x1 r n)
    (broadcastTo_1b_ab_apply x2 broadcasts_S1x200_S1024x200 r n)

/-- The elementwise part: from any gate matrix `y`, the hidden matrix at `(r, j)` is `hidden` of the three gates of unit `j`. -/
theorem hidden_apply (y : FVec Ideal S1024x200 .f32) (r : Fin 1024) (j : Fin 50) :
    mulf (logistic (extractStridedSlice S1024x50 ![0, 150] y slices_S1024x200_o0_150_S1024x50))
         (tanh (mulf (logistic (extractStridedSlice S1024x50 ![0, 0] y slices_S1024x200_o0_0_S1024x50))
                     (tanh (extractStridedSlice S1024x50 ![0, 100] y slices_S1024x200_o0_100_S1024x50)))) (ix2 r j)
      = hidden (y (ix2 r (inGate j))) (y (ix2 r (candGate j))) (y (ix2 r (outGate j))) := by
  show Ideal.logistic (extractStridedSlice S1024x50 ![0, 150] y slices_S1024x200_o0_150_S1024x50 (ix2 r j))
        * Ideal.tanh (Ideal.logistic (extractStridedSlice S1024x50 ![0, 0] y slices_S1024x200_o0_0_S1024x50 (ix2 r j))
            * Ideal.tanh (extractStridedSlice S1024x50 ![0, 100] y slices_S1024x200_o0_100_S1024x50 (ix2 r j))) = _
  rw [slice_in, slice_cand, slice_out]
  rfl

/-- The stored value at `(r, f)`: the second product of the hidden row against column `f`, plus the broadcast output bias. -/
theorem pay_apply (x0 : Vec Ideal S1024x1024 .f32) (x1 : Vec Ideal S1024x200 .bf16) (x2 : Vec Ideal S1x200 .f32)
    (x3 : Vec Ideal S50x1024 .bf16) (x4 : Vec Ideal S1x1024 .f32) (r f : Fin 1024) :
    k0_pay1 (F := Ideal) x0 x1 x2 x3 x4 (ix2 r f)
      = rowOut (fun k => x0 (ix2 r k)) (fun k n => x1 (ix2 k n)) (fun n => x2 (ix2 0 n))
          (fun j f' => x3 (ix2 j f')) (fun f' => x4 (ix2 0 f')) f := by
  unfold k0_pay1
  simp only [shapeCast_self]
  refine (addf_apply _ _ _).trans ?_
  unfold rowOut
  refine congrArg₂ (· + ·) ?_ (broadcastTo_1b_ab_apply x4 broadcasts_S1x1024_S1024x1024 r f)
  refine (out_matmul_apply _ x3 r f).trans ?_
  refine Finset.sum_congr rfl fun j _ => ?_
  refine congrArg (· * x3 (ix2 j f)) ?_
  refine (hidden_apply _ r j).trans ?_
  unfold hiddenAt
  exact congr (congr (congrArg hidden (gates_apply x0 x1 x2 r (inGate j))) (gates_apply x0 x1 x2 r (candGate j)))
    (gates_apply x0 x1 x2 r (outGate j))

end Cert.Lstm.Kern

end
-- ==== Proof.Blocks.lean ====
/-
  From the kernel's blocks to its output array.

  Grid point `t` (of 64) stages rows `1024·t … 1024·t + 1023` of the 65536 × 1024 input and writes the same rows of the
  output; the four weight and bias operands are staged whole at every point. So what point `t` writes back is rows
  `1024·t …` of `out2d` of the arrays as the region finds them, the 64 row blocks cover the output, and the output
  array after the region is `out2d` of those arrays.
-/
import proofs.«128014_j32615981646159_1_alg».proof.Proof.Gen.KernelIdeal.Frame
import proofs.«128014_j32615981646159_1_alg».proof.Proof.Payload
import Idealize.ShloMosaic.Lib.Pipeline.Value

noncomputable section

namespace Cert.Lstm.Kern

open Cert.KernelIdeal Cert.KernelIdeal.Gen Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The block index of every window at every point: the row block `t` for the input and the output, the one block of
    each resident operand. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 64 :=
  (by decide +kernel : ∀ t : Fin grid0.N, _)

/-- The output array as one function of the arrays the region finds. -/
abbrev G5 (c : Dev nD) : Vec Ideal S65536x1024 .f32 :=
  out2d (V m c main_v0) (V m c main_v4) (V m c main_v2) (V m c main_v6) (V m c main_v7)

/-- The body's value at a block index is `out2d` at the array index, once each loaded block is known to be the
    matching part of its array. -/
theorem pay_block (a0 : Vec Ideal S65536x1024 .f32) (a1 : Vec Ideal S1024x200 .bf16) (a2 : Vec Ideal S1x200 .f32)
    (a3 : Vec Ideal S50x1024 .bf16) (a4 : Vec Ideal S1x1024 .f32)
    (x0 : Vec Ideal S1024x1024 .f32) (x1 : Vec Ideal S1024x200 .bf16) (x2 : Vec Ideal S1x200 .f32)
    (x3 : Vec Ideal S50x1024 .bf16) (x4 : Vec Ideal S1x1024 .f32) (r f : Fin 1024) (R : Fin 65536)
    (h0 : ∀ k : Fin 1024, x0 (ix2 r k) = a0 (ix2 R k)) (h1 : x1 = a1) (h2 : x2 = a2) (h3 : x3 = a3) (h4 : x4 = a4) :
    k0_pay1 (F := Ideal) x0 x1 x2 x3 x4 (ix2 r f) = out2d a0 a1 a2 a3 a4 (ix2 R f) := by
  subst h1 h2 h3 h4
  rw [pay_apply]
  unfold out2d
  exact congrArg (fun xr => rowOut xr _ _ _ _ f) (funext h0)

/-- Row `r` of the input block at point `t` is row `1024·t + r` of the input array. -/
theorem blk0_row (c : Dev nD) (t : Fin cfg0.N) (r k : Fin 1024) (R : Fin 65536) (hR : R.val = t.val * 1024 + r.val) :
    iblk m c 0 t (ix2 r k) = V m c main_v0 (ix2 R k) := by
  obtain ⟨e00, e01, -⟩ := idx_facts t
  show V m c main_v0 (((cfg0.win 0).blk t).view.emb (ix2 r k)) = V m c main_v0 (ix2 R k)
  refine congrArg (V m c main_v0) (funext fun a => Fin.ext ?_)
  match a with
  | ⟨0, _⟩ => show win0_0.index t (0 : Fin 2) * 1024 + 1 * r.val = R.val; omega
  | ⟨1, _⟩ => show win0_0.index t (1 : Fin 2) * 1024 + 1 * k.val = k.val; omega

/-- The transposed gate weights are staged whole. -/
theorem blk1_whole (c : Dev nD) (t : Fin cfg0.N) : iblk m c 1 t = V m c main_v4 := by
  obtain ⟨-, -, e10, e11, -⟩ := idx_facts t
  funext y
  show V m c main_v4 (((cfg0.win 1).blk t).view.emb y) = V m c main_v4 y
  refine congrArg (V m c main_v4) (funext fun a => Fin.ext ?_)
  match a with
  | ⟨0, _⟩ => show win0_1.index t (0 : Fin 2) * 1024 + 1 * (y 0).val = (y 0).val; omega
  | ⟨1, _⟩ => show win0_1.index t (1 : Fin 2) * 200 + 1 * (y 1).val = (y 1).val; omega

/-- The gate bias row is staged whole. -/
theorem blk2_whole (c : Dev nD) (t : Fin cfg0.N) : iblk m c 2 t = V m c main_v2 := by
  obtain ⟨-, -, -, -, e20, e21, -⟩ := idx_facts t
  funext y
  show V m c main_v2 (((cfg0.win 2).blk t).view.emb y) = V m c main_v2 y
  refine congrArg (V m c main_v2) (funext fun a => Fin.ext ?_)
  match a with
  | ⟨0, _⟩ => show win0_2.index t (0 : Fin 2) * 1 + 1 * (y 0).val = (y 0).val; omega
  | ⟨1, _⟩ => show win0_2.index t (1 : Fin 2) * 200 + 1 * (y 1).val = (y 1).val; omega

/-- The transposed output weights are staged whole. -/
theorem blk3_whole (c : Dev nD) (t : Fin cfg0.N) : iblk m c 3 t = V m c main_v6 := by
  obtain ⟨-, -, -, -, -, -, e30, e31, -⟩ := idx_facts t
  funext y
  show V m c main_v6 (((cfg0.win 3).blk t).view.emb y) = V m c main_v6 y
  refine congrArg (V m c main_v6) (funext fun a => Fin.ext ?_)
  match a with
  | ⟨0, _⟩ => show win0_3.index t (0 : Fin 2) * 50 + 1 * (y 0).val = (y 0).val; omega
  | ⟨1, _⟩ => show win0_3.index t (1 : Fin 2) * 1024 + 1 * (y 1).val = (y 1).val; omega

/-- The output bias row is staged whole. -/
theorem blk4_whole (c : Dev nD) (t : Fin cfg0.N) : iblk m c 4 t = V m c main_v7 := by
  obtain ⟨-, -, -, -, -, -, -, -, e40, e41, -⟩ := idx_facts t
  funext y
  show V m c main_v7 (((cfg0.win 4).blk t).view.emb y) = V m c main_v7 y
  refine congrArg (V m c main_v7) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- What point `t` writes back is its row block of `G5`. -/
theorem flushed_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  unfold out0_5
  rw [View.canon_unit_zero hz]
  simp only [View.ld_unit_zero (S := S1024x1024) hz, View.ld_unit_zero (S := S1024x200) hz, View.ld_unit_zero (S := S1x200) hz,
    View.ld_unit_zero (S := S50x1024) hz, View.ld_unit_zero (S := S1x1024) hz]
  obtain ⟨-, -, -, -, -, -, -, -, -, -, e50, e51, ht⟩ := idx_facts t
  funext y
  obtain ⟨r, f, rfl⟩ : ∃ (r f : Fin 1024), y = ix2 r f := ⟨y 0, y 1, eq_ix2 y⟩
  have hemb : ((cfg0.win 5).blk t).view.emb (ix2 r f) = ix2 (⟨t.val * 1024 + r.val, by have := r.isLt; omega⟩ : Fin 65536) f := by
    funext a; apply Fin.ext
    match a with
    | ⟨0, _⟩ => show win0_5.index t (0 : Fin 2) * 1024 + 1 * r.val = t.val * 1024 + r.val; omega
    | ⟨1, _⟩ => show win0_5.index t (1 : Fin 2) * 1024 + 1 * f.val = f.val; omega
  show k0_pay1 (F := Ideal) (iblk m c 0 t) (iblk m c 1 t) (iblk m c 2 t) (iblk m c 3 t) (iblk m c 4 t) (ix2 r f)
    = G5 m c (((cfg0.win 5).blk t).view.emb (ix2 r f))
  rw [hemb]
  exact pay_block (V m c main_v0) (V m c main_v4) (V m c main_v2) (V m c main_v6) (V m c main_v7)
    (iblk m c 0 t) (iblk m c 1 t) (iblk m c 2 t) (iblk m c 3 t) (iblk m c 4 t) r f _
    (fun k => blk0_row m c t r k _ rfl) (blk1_whole m c t) (blk2_whole m c t) (blk3_whole m c t) (blk4_whole m c t)

/-- An index of the output array lies in point `t`'s block iff each coordinate lies in the block's range. -/
theorem mem_blk (t : Fin cfg0.N) (i : S65536x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v8).slice (win0_5.rect t)).set ↔ _
  rw [View.set_slice_whole, Rect.mem_set_unit]
  exact Iff.rfl

/-- The 64 row blocks cover the output array: row `R` lies in block `R / 1024`. -/
theorem cover (i : S65536x1024.Idx) :
    ∃ t : Fin cfg0.N, (cfg0.win 5).flush t = true ∧ i ∈ ((cfg0.win 5).blk t).view.set := by
  have hi0 : (i 0).val < 65536 := (i 0).isLt
  have hi1 : (i 1).val < 1024 := (i 1).isLt
  let t : Fin cfg0.N := ⟨(i 0).val / 1024, by rw [show cfg0.N = 64 from N_0]; omega⟩
  obtain ⟨-, -, -, -, -, -, -, -, -, -, e50, e51, -⟩ := idx_facts t
  have htv : t.val = (i 0).val / 1024 := rfl
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- The output array after the region is `G5`. -/
theorem final5 (c : Dev nD) : (dats m 0 c).arrAt 5 cfg0.N = G5 m c :=
  (dats m 0 c).arrAt_eq_of_cover 5 (G5 m c) (fun t _ => flushed_eq m c t) cover

end Cert.Lstm.Kern

end
-- ==== Proof.HostSide.lean ====
/-
  The host operations around the region, read as values: what the region finds in each of its five input arrays, as
  reshapes, transposes and one sum of the program's arguments, and the program's result as the reshape of the region's
  output array.
-/
import proofs.«128014_j32615981646159_1_alg».proof.Proof.Gen.KernelIdeal.Frame
import Idealize.ShloMosaic.Lib.StableHlo.Run
import Idealize.ShloMosaic.PureOps.Ideal
import Idealize.ShloMosaic.Lib.Pipeline.Value

noncomputable section

namespace Cert.Lstm.Kern

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ)

/-- The region's input rows are the input array flattened over its two leading axes. -/
theorem V_v0 (c : Dev nD) : (V m c main_v0 : S65536x1024.Idx → EReal)
    = shapeCast S65536x1024 (m ((c : Thread nD τ).loc main_arg0)) shapeCasts_S32x2048x1024_S65536x1024 := by
  show StableHlo.after hostOps0 (fun b => m (c, b)) (Proc.devRef .tc main_v0) = _
  after_results
  rfl

/-- The gate weights reach the region transposed (the change of float format is the identity here). -/
theorem V_v4 (c : Dev nD) : (V m c main_v4 : S1024x200.Idx → EReal)
    = truncf (F := Ideal) .bf16 (transpose S1024x200 [1, 0] (m ((c : Thread nD τ).loc main_arg1)) transposes_S200x1024_S1024x200_1_0) bitsLt_bf16_f32 := by
  show StableHlo.after hostOps0 (fun b => m (c, b)) (Proc.devRef .tc main_v4) = _
  after_results

/-- The gate bias row is the sum of the two bias vectors, as a one-row matrix. -/
theorem V_v2 (c : Dev nD) : (V m c main_v2 : S1x200.Idx → EReal)
    = shapeCast S1x200 (addf (m ((c : Thread nD τ).loc main_arg3)) (m ((c : Thread nD τ).loc main_arg4)) : FVec Ideal S200 .f32) shapeCasts_S200_S1x200 := by
  show StableHlo.after hostOps0 (fun b => m (c, b)) (Proc.devRef .tc main_v2) = _
  after_results
  rfl

/-- The output weights reach the region transposed. -/
theorem V_v6 (c : Dev nD) : (V m c main_v6 : S50x1024.Idx → EReal)
    = truncf (F := Ideal) .bf16 (transpose S50x1024 [1, 0] (m ((c : Thread nD τ).loc main_arg5)) transposes_S1024x50_S50x1024_1_0) bitsLt_bf16_f32 := by
  show StableHlo.after hostOps0 (fun b => m (c, b)) (Proc.devRef .tc main_v6) = _
  after_results

/-- The output bias reaches the region as a one-row matrix. -/
theorem V_v7 (c : Dev nD) : (V m c main_v7 : S1x1024.Idx → EReal)
    = shapeCast S1x1024 (m ((c : Thread nD τ).loc main_arg6)) shapeCasts_S1024_S1x1024 := by
  show StableHlo.after hostOps0 (fun b => m (c, b)) (Proc.devRef .tc main_v7) = _
  after_results
  rfl

/-- The program's result is the region's output array with its rows split back into the two leading axes. -/
theorem tail_v9 (c : Dev nD) :
    (Pipeline.afterTail₀ cfgs (dats m) 0 (V0 m) [hostOps1] c main_v9 : S32x2048x1024.Idx → EReal)
      = shapeCast S32x2048x1024 ((dats m 0 c).arrAt 5 cfg0.N) shapeCasts_S65536x1024_S32x2048x1024 := by
  unfold Pipeline.afterTail₀
  show StableHlo.after hostOps1 _ (Proc.devRef .tc main_v9) = _
  after_results
  exact congrArg (fun a : S65536x1024.Idx → EReal => shapeCast S32x2048x1024 a shapeCasts_S65536x1024_S32x2048x1024)
    (Pipeline.withArrays_arr spec0 launch0.win.arr_inj c (V0 m c) (fun w => (dats m 0 c).arrAt w cfg0.N) 5)

end Cert.Lstm.Kern

end
-- ==== Proof.Bridge.lean ====
/-
  The two arrangements are one function.

  The kernel's program flattens the 32 × 2048 × 1024 input to 65536 rows, transposes the two weight matrices, adds the
  two gate biases, runs every row through `rowOut` (`out2d`), and splits the rows back. Row `2048·b + t` of the
  flattened input is row `(b, t)` of the input, a transposed matrix read at `(k, n)` is the matrix at `(n, k)`, and
  a one-row matrix read at `(0, n)` is the vector at `n`: so the result at `(b, t, f)` is `out3d` there.
-/
import proofs.«128014_j32615981646159_1_alg».proof.Proof.Gen.KernelIdeal
import proofs.«128014_j32615981646159_1_alg».proof.Proof.Spec
import Idealize.ShloMosaic.Lib.Pipeline.Value
import Idealize.ShloMosaic.Lib.ValueIdx

noncomputable section

namespace Cert.Lstm.Kern

open Cert.KernelIdeal Cert.KernelIdeal.Gen Idealize.ShloMosaic Idealize.ShloMosaic.ValueIdx Cert.Lstm

theorem rows_split (X : S32x2048x1024.Idx → EReal) (Wih : S200x1024.Idx → EReal) (bih bhh : S200.Idx → EReal)
    (Wlin : S1024x50.Idx → EReal) (blin : S1024.Idx → EReal) :
    shapeCast S32x2048x1024
        (out2d (shapeCast S65536x1024 X shapeCasts_S32x2048x1024_S65536x1024)
          (truncf (F := Ideal) .bf16 (transpose S1024x200 [1, 0] Wih transposes_S200x1024_S1024x200_1_0 : FVec Ideal S1024x200 .f32) bitsLt_bf16_f32)
          (shapeCast S1x200 (addf bih bhh : FVec Ideal S200 .f32) shapeCasts_S200_S1x200)
          (truncf (F := Ideal) .bf16 (transpose S50x1024 [1, 0] Wlin transposes_S1024x50_S50x1024_1_0 : FVec Ideal S50x1024 .f32) bitsLt_bf16_f32)
          (shapeCast S1x1024 blin shapeCasts_S1024_S1x1024))
        shapeCasts_S65536x1024_S32x2048x1024
      = out3d X Wih bih bhh Wlin blin := by
  funext i
  obtain ⟨b, t, f, rfl⟩ : ∃ (b : Fin 32) (t : Fin 2048) (f : Fin 1024), i = ix3 b t f := ⟨i 0, i 1, i 2, eq_ix3 i⟩
  have hR : b.val * 2048 + t.val < 65536 := by have := b.isLt; have := t.isLt; omega
  refine (shapeCast_apply _ shapeCasts_S65536x1024_S32x2048x1024 (ix3 b t f) (ix2 (⟨b.val * 2048 + t.val, hR⟩ : Fin 65536) f) ?_).trans ?_
  · rw [Shape.rowMajor_val_two, Shape.rowMajor_val_three]; rfl
  have e0 : (fun k : Fin 1024 => shapeCast S65536x1024 X shapeCasts_S32x2048x1024_S65536x1024 (ix2 (⟨b.val * 2048 + t.val, hR⟩ : Fin 65536) k))
      = fun k => X (ix3 b t k) := funext fun k =>
    shapeCast_apply X shapeCasts_S32x2048x1024_S65536x1024 _ (ix3 b t k) (by rw [Shape.rowMajor_val_two, Shape.rowMajor_val_three]; rfl)
  have e1 : (fun (k : Fin 1024) (n : Fin 200) => truncf (F := Ideal) .bf16 (transpose S1024x200 [1, 0] Wih transposes_S200x1024_S1024x200_1_0 : FVec Ideal S1024x200 .f32) bitsLt_bf16_f32 (ix2 k n))
      = fun k n => Wih (ix2 n k) := funext fun k => funext fun n =>
    transpose_apply [1, 0] Wih transposes_S200x1024_S1024x200_1_0 (ix2 k n) (ix2 n k) (fun a => match a with | ⟨0, _⟩ => rfl | ⟨1, _⟩ => rfl)
  have e2 : (fun n : Fin 200 => shapeCast S1x200 (addf bih bhh : FVec Ideal S200 .f32) shapeCasts_S200_S1x200 (ix2 0 n))
      = fun n => bih (ix1 n) + bhh (ix1 n) := funext fun n =>
    shapeCast_apply (addf bih bhh : FVec Ideal S200 .f32) shapeCasts_S200_S1x200 (ix2 0 n) (ix1 n) (by rw [Shape.rowMajor_val_one, Shape.rowMajor_val_two]; show n.val = 0 * 200 + n.val; omega)
  have e3 : (fun (j : Fin 50) (f' : Fin 1024) => truncf (F := Ideal) .bf16 (transpose S50x1024 [1, 0] Wlin transposes_S1024x50_S50x1024_1_0 : FVec Ideal S50x1024 .f32) bitsLt_bf16_f32 (ix2 j f'))
      = fun j f' => Wlin (ix2 f' j) := funext fun j => funext fun f' =>
    transpose_apply [1, 0] Wlin transposes_S1024x50_S50x1024_1_0 (ix2 j f') (ix2 f' j) (fun a => match a with | ⟨0, _⟩ => rfl | ⟨1, _⟩ => rfl)
  have e4 : (fun f' : Fin 1024 => shapeCast S1x1024 blin shapeCasts_S1024_S1x1024 (ix2 0 f'))
      = fun f' => blin (ix1 f') := funext fun f' =>
    shapeCast_apply blin shapeCasts_S1024_S1x1024 (ix2 0 f') (ix1 f') (by rw [Shape.rowMajor_val_one, Shape.rowMajor_val_two]; show f'.val = 0 * 1024 + f'.val; omega)
  show rowOut (fun k : Fin 1024 => shapeCast S65536x1024 X shapeCasts_S32x2048x1024_S65536x1024 (ix2 (⟨b.val * 2048 + t.val, hR⟩ : Fin 65536) k))
      (fun (k : Fin 1024) (n : Fin 200) => truncf (F := Ideal) .bf16 (transpose S1024x200 [1, 0] Wih transposes_S200x1024_S1024x200_1_0 : FVec Ideal S1024x200 .f32) bitsLt_bf16_f32 (ix2 k n))
      (fun n : Fin 200 => shapeCast S1x200 (addf bih bhh : FVec Ideal S200 .f32) shapeCasts_S200_S1x200 (ix2 0 n))
      (fun (j : Fin 50) (f' : Fin 1024) => truncf (F := Ideal) .bf16 (transpose S50x1024 [1, 0] Wlin transposes_S1024x50_S50x1024_1_0 : FVec Ideal S50x1024 .f32) bitsLt_bf16_f32 (ix2 j f'))
      (fun f' : Fin 1024 => shapeCast S1x1024 blin shapeCasts_S1024_S1x1024 (ix2 0 f')) f
    = rowOut (fun k => X (ix3 b t k)) (fun k n => Wih (ix2 n k)) (fun n => bih (ix1 n) + bhh (ix1 n))
      (fun j f' => Wlin (ix2 f' j)) (fun f' => blin (ix1 f')) f
  rw [e0, e1, e2, e3, e4]

end Cert.Lstm.Kern

end
-- ==== Proof.KernelValue.lean ====
/-
  The kernel program's result as a function of its arguments, and its run.

  The region's output array is `out2d` of the five arrays the region finds; those are reshapes, transposes and a sum of
  the arguments; the program's result is that array with its rows split back into `(b, t)`: so the result is `out3d`
  of the arguments, and every fair execution ends there with the arguments as they were.
-/
import proofs.«128014_j32615981646159_1_alg».proof.Proof.Blocks
import proofs.«128014_j32615981646159_1_alg».proof.Proof.HostSide
import proofs.«128014_j32615981646159_1_alg».proof.Proof.Bridge

noncomputable section

namespace Cert.Lstm.Kern

open Cert.KernelIdeal Cert.KernelIdeal.Gen Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

/-- The program's result buffer after the host operations that follow the region. -/
theorem result_eq (c : Dev nD) :
    Pipeline.afterTail₀ cfgs (dats m) 0 (V0 m) [hostOps1] c main_v9
      = out3d (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) := by
  refine (tail_v9 m c).trans ?_
  rw [final5]
  unfold G5
  rw [V_v0, V_v4, V_v2, V_v6, V_v7]
  exact rows_split _ _ _ _ _ _

/-- Every weakly fair execution of the kernel program ends with its result at `out3d` of the arguments and the
    arguments unchanged. -/
theorem run : θ_run defs (onTc (τ := τ) (main (F := Ideal))) ⟨m, fun _ => 0, ρ⟩ (fun r => ∀ c : Dev nD,
      r.2.mem ((c.tc : Thread nD τ).loc main_v9)
        = out3d (m ((c.tc : Thread nD τ).loc main_arg0)) (m ((c.tc : Thread nD τ).loc main_arg1)) (m ((c.tc : Thread nD τ).loc main_arg3))
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Lstm.Kern

end
-- ==== Proof.RefRead.lean ====
/-
  The reference program read as the row function: at every index its result is `out3d` of the argument arrays.
-/
import proofs.«128014_j32615981646159_1_alg».proof.Proof.Gen.ReferenceIdeal.Run
import proofs.«128014_j32615981646159_1_alg».proof.Proof.Gen.ReferenceIdeal.Read
import proofs.«128014_j32615981646159_1_alg».proof.Proof.Spec

noncomputable section

namespace Cert.Lstm.Ref

open Cert.ReferenceIdeal Cert.ReferenceIdeal.Gen Idealize.ShloMosaic Idealize.ShloMosaic.ValueIdx Cert.Lstm

/-! The index functions of the reference's stages, at an index given by its coordinates. -/

/-- The first product's left operand is read at the same row, feature `k`. -/
theorem lidx0_ix (b : Fin 32) (t : Fin 2048) (n : Fin 200) (k : Fin 1024) :
    Read.lidx_main_v0 (ix3 b t n) k = ix3 b t k := by
  funext a; match a with | ⟨0, _⟩ => rfl | ⟨1, _⟩ => rfl | ⟨2, _⟩ => rfl

/-- The first product's right operand is read at gate `n`, feature `k`. -/
theorem ridx0_ix (b : Fin 32) (t : Fin 2048) (n : Fin 200) (k : Fin 1024) :
    Read.ridx_main_v0 (ix3 b t n) k = ix2 n k := by
  funext a; match a with | ⟨0, _⟩ => rfl | ⟨1, _⟩ => rfl

/-- The first bias, broadcast over rows, is read at gate `n`. -/
theorem idx12_ix (b : Fin 32) (t : Fin 2048) (n : Fin 200) :
    Read.idx_main_v1 (Read.idx_main_v2 (ix3 b t n)) = ix1 n := by
  funext a; match a with | ⟨0, _⟩ => rfl

/-- The second bias, broadcast over rows, is read at gate `n`. -/
theorem idx45_ix (b : Fin 32) (t : Fin 2048) (n : Fin 200) :
    Read.idx_main_v4 (Read.idx_main_v5 (ix3 b t n)) = ix1 n := by
  funext a; match a with | ⟨0, _⟩ => rfl

/-- The gate pre-activations of the reference are `gate` of the row: the two biases are added one after the other
    there and as one sum here, which is associativity of addition. -/
theorem v6_ix (X : (⟨S32x2048x1024, .f32⟩ : BufTy).Contents (Elt Ideal)) (Wih : (⟨S200x1024, .f32⟩ : BufTy).Contents (Elt Ideal))
    (bih bhh : (⟨S200, .f32⟩ : BufTy).Contents (Elt Ideal)) (b : Fin 32) (t : Fin 2048) (n : Fin 200) :
    Read.val_main_v6 (F := Ideal) X Wih bih bhh (ix3 b t n)
      = gate (fun k => X (ix3 b t k)) (fun k n => Wih (ix2 n k)) (fun n => bih (ix1 n) + bhh (ix1 n)) n := by
  rw [Read.val_main_v6_apply, Read.val_main_v3_apply, Read.val_main_v0_apply, Read.val_main_v2_apply,
    Read.val_main_v1_apply, Read.val_main_v5_apply, Read.val_main_v4_apply, idx12_ix, idx45_ix]
  simp only [Ideal.addf_def, lidx0_ix, ridx0_ix]
  unfold gate
  exact add_assoc _ _ _

/-- The first slice reads the input gate's column. -/
theorem idx7_ix (b : Fin 32) (t : Fin 2048) (j : Fin 50) :
    Read.idx_main_v7 (ix3 b t j) = ix3 b t (inGate j) := by
  funext a; match a with | ⟨0, _⟩ => rfl | ⟨1, _⟩ => rfl | ⟨2, _⟩ => rfl

/-- The third slice reads the cell candidate's column. -/
theorem idx9_ix (b : Fin 32) (t : Fin 2048) (j : Fin 50) :
    Read.idx_main_v9 (ix3 b t j) = ix3 b t (candGate j) := by
  funext a; match a with | ⟨0, _⟩ => rfl | ⟨1, _⟩ => rfl | ⟨2, _⟩ => rfl

/-- The fourth slice reads the output gate's column. -/
theorem idx10_ix (b : Fin 32) (t : Fin 2048) (j : Fin 50) :
    Read.idx_main_v10 (ix3 b t j) = ix3 b t (outGate j) := by
  funext a; match a with | ⟨0, _⟩ => rfl | ⟨1, _⟩ => rfl | ⟨2, _⟩ => rfl

/-- The hidden value of the reference at row `(b, t)`, unit `j`: the two quotients are the logistic function. -/
theorem v26_ix (X : (⟨S32x2048x1024, .f32⟩ : BufTy).Contents (Elt Ideal)) (Wih : (⟨S200x1024, .f32⟩ : BufTy).Contents (Elt Ideal))
    (bih bhh : (⟨S200, .f32⟩ : BufTy).Contents (Elt Ideal)) (b : Fin 32) (t : Fin 2048) (j : Fin 50) :
    Read.val_main_v26 (F := Ideal) X Wih bih bhh (ix3 b t j)
      = hiddenAt (fun k => X (ix3 b t k)) (fun k n => Wih (ix2 n k)) (fun n => bih (ix1 n) + bhh (ix1 n)) j := by
  rw [Read.val_main_v26_apply, Read.val_main_v24_apply, Read.val_main_v23_apply, Read.val_main_cst_2_apply,
    Read.val_main_v22_apply, Read.val_main_v21_apply, Read.val_main_cst_1_apply, Read.val_main_v20_apply,
    Read.val_main_v19_apply, Read.val_main_v10_apply, Read.val_main_v25_apply, Read.val_main_v18_apply,
    Read.val_main_v16_apply, Read.val_main_v15_apply, Read.val_main_cst_0_apply, Read.val_main_v14_apply,
    Read.val_main_v13_apply, Read.val_main_cst_apply, Read.val_main_v12_apply, Read.val_main_v11_apply,
    Read.val_main_v7_apply, Read.val_main_v17_apply, Read.val_main_v9_apply, idx7_ix, idx9_ix, idx10_ix,
    v6_ix, v6_ix, v6_ix]
  simp only [Ideal.addf_def, Ideal.mulf_def, Ideal.hostDivf_def, Ideal.hostUnary_exp_def, Ideal.hostUnary_tanh_def,
    Ideal.hostNegf_def, Ideal.negf_def, Ideal.ofBits_def, logistic_spelt]
  rfl

/-- The second product's left operand is read at the same row, unit `j`. -/
theorem lidx27_ix (b : Fin 32) (t : Fin 2048) (f : Fin 1024) (j : Fin 50) :
    Read.lidx_main_v27 (ix3 b t f) j = ix3 b t j := by
  funext a; match a with | ⟨0, _⟩ => rfl | ⟨1, _⟩ => rfl | ⟨2, _⟩ => rfl

/-- The second product's right operand is read at feature `f`, unit `j`. -/
theorem ridx27_ix (b : Fin 32) (t : Fin 2048) (f : Fin 1024) (j : Fin 50) :
    Read.ridx_main_v27 (ix3 b t f) j = ix2 f j := by
  funext a; match a with | ⟨0, _⟩ => rfl | ⟨1, _⟩ => rfl

/-- The output bias, broadcast over rows, is read at feature `f`. -/
theorem idx2829_ix (b : Fin 32) (t : Fin 2048) (f : Fin 1024) :
    Read.idx_main_v28 (Read.idx_main_v29 (ix3 b t f)) = ix1 f := by
  funext a; match a with | ⟨0, _⟩ => rfl

theorem ref_eq (X : (⟨S32x2048x1024, .f32⟩ : BufTy).Contents (Elt Ideal)) (Wih : (⟨S200x1024, .f32⟩ : BufTy).Contents (Elt Ideal))
    (bih bhh : (⟨S200, .f32⟩ : BufTy).Contents (Elt Ideal)) (Wlin : (⟨S1024x50, .f32⟩ : BufTy).Contents (Elt Ideal))
    (blin : (⟨S1024, .f32⟩ : BufTy).Contents (Elt Ideal)) :
    Cert.ReferenceIdeal.Read.val_main_v30 (F := Ideal) X Wih bih bhh Wlin blin = out3d X Wih bih bhh Wlin blin := by
  funext i
  obtain ⟨b, t, f, rfl⟩ : ∃ (b : Fin 32) (t : Fin 2048) (f : Fin 1024), i = ix3 b t f := ⟨i 0, i 1, i 2, eq_ix3 i⟩
  rw [Read.val_main_v30_apply, Read.val_main_v27_apply, Read.val_main_v29_apply, Read.val_main_v28_apply, idx2829_ix]
  simp only [Ideal.addf_def, lidx27_ix, ridx27_ix, v26_ix]
  rfl

end Cert.Lstm.Ref

end
-- ==== Proof.lean ====
/-
  A single LSTM cell step from zero state followed by a linear layer, applied to every one of 32 × 2048 rows of 1024
  features: the kernel against the reference, over the extended reals.

  Both programs compute, for each row `x`, the gate pre-activations `x · W_ihᵀ + b_ih + b_hh` (200 of them), the
  hidden vector `h = σ(o) · tanh(σ(i) · tanh(g))` from the input, candidate and output gates (the forget gate meets a
  zero cell state and drops out), and the result `h · W_linᵀ + b_lin`. The kernel works on the rows flattened to a
  65536 × 1024 matrix in 64 blocks of 1024 rows, with the weights transposed beforehand and the two biases added
  beforehand; the reference works on the 32 × 2048 × 1024 array with two contractions. Over the extended reals a
  change of float format is the identity, the kernel's logistic operation is the quotient `1 / (1 + e⁻ˣ)` the
  reference spells out, a contraction is a finite sum in either program, and the only law between the two arrangements
  is associativity of addition (the biases are added to the sum one after the other in the reference, as one sum in the
  kernel): no finiteness of the inputs is used.

  The pieces: Proof/Spec.lean states the row function `rowOut` and the two whole-array forms `out2d`, `out3d`;
  Proof/Payload.lean reads the kernel body's stored value at an index; Proof/Blocks.lean goes from the 64 row blocks to
  the region's output array; Proof/HostSide.lean reads the host operations around the region; Proof/Bridge.lean shows
  that flattening, transposing, `out2d` and splitting back is `out3d`; Proof/KernelValue.lean joins them into the
  kernel program's run; Proof/RefRead.lean reads the reference program's result as `out3d`.
-/
import proofs.«128014_j32615981646159_1_alg».proof.Defs
import proofs.«128014_j32615981646159_1_alg».proof.Proof.Gen.Kernel
import proofs.«128014_j32615981646159_1_alg».proof.Proof.Gen.Kernel.Skeleton
import proofs.«128014_j32615981646159_1_alg».proof.Proof.Gen.Kernel.Launch
import proofs.«128014_j32615981646159_1_alg».proof.Proof.Gen.Kernel.Points
import proofs.«128014_j32615981646159_1_alg».proof.Proof.Gen.Kernel.Frame
import proofs.«128014_j32615981646159_1_alg».proof.Proof.Gen.KernelIdeal
import proofs.«128014_j32615981646159_1_alg».proof.Proof.Gen.KernelIdeal.Skeleton
import proofs.«128014_j32615981646159_1_alg».proof.Proof.Gen.KernelIdeal.Launch
import proofs.«128014_j32615981646159_1_alg».proof.Proof.Gen.KernelIdeal.Points
import proofs.«128014_j32615981646159_1_alg».proof.Proof.Gen.KernelIdeal.Frame
import proofs.«128014_j32615981646159_1_alg».proof.Proof.Gen.ReferenceIdeal
import proofs.«128014_j32615981646159_1_alg».proof.Proof.Gen.ReferenceIdeal.Run
import proofs.«128014_j32615981646159_1_alg».proof.Proof.Gen.ReferenceIdeal.Read
import proofs.«128014_j32615981646159_1_alg».proof.Proof.Gen.Pre_finite_inputs
import proofs.«128014_j32615981646159_1_alg».proof.Proof.KernelValue
import proofs.«128014_j32615981646159_1_alg».proof.Proof.RefRead
import Idealize.ShloMosaic.Adequacy
import Idealize.ShloMosaic.Init

noncomputable section

namespace Cert.Proof

open Idealize.ShloMosaic Idealize.SL.Sem

/-- The word-level kernel program terminates without a fault and leaves its arguments unchanged. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference program is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel program was read over the extended reals. -/
theorem preserves : Cert.preserves_Kernel_KernelIdeal := trivial

/-- From memories that agree on the arguments both programs end with `out3d` of the arguments in their result. -/
theorem algebraic : Cert.algebraic_KernelIdeal_ReferenceIdeal := by
  intro m ρ m' ρ' _ hagree
  refine ⟨_, Cert.Lstm.Kern.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v30_eq _ _ _ _ _ _).trans ((Cert.Lstm.Ref.ref_eq _ _ _ _ _ _).trans ?_)
  rw [(hagree c).1, (hagree c).2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
